-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S16x4096 .f32) (main_arg3 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S8192x4096 : Shape := ⟨2, ![8192, 4096]⟩
abbrev S1024x1024 : Shape := ⟨2, ![1024, 1024]⟩
abbrev S16x1024 : Shape := ⟨2, ![16, 1024]⟩
abbrev S1024x16 : Shape := ⟨2, ![1024, 16]⟩

abbrev nBuf : Space → Nat
  | .hbm => 7
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S8192x4096, .f32⟩
  | .hbm, ⟨5, _⟩ => ⟨S8192x4096, .f32⟩
  | .hbm, ⟨6, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S16x1024, .f32⟩
  | .local _ .vmem, ⟨5, _⟩ => ⟨S16x1024, .f32⟩
  | .local _ .vmem, ⟨6, _⟩ => ⟨S1024x16, .f32⟩
  | .local _ .vmem, ⟨7, _⟩ => ⟨S1024x16, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  bitsLt_bf16_f32 : FTy.bits .bf16 < FTy.bits .f32
  inb_S16x1024_S16x1024_0_0 : ∀ a, (![0, 0] : Fin 2 → Nat) a + S16x1024.size a ≤ S16x1024.size a
  h_S16x1024 : 0 < S16x1024.numel
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  dot_S1024x1024_S16x1024_S1024x16_1_1_0_0_n_n_wf : DotDims.WF S1024x1024 S16x1024 S1024x16 [1] [1] [0] [0] [] []
  dot_S1024x16_S1024x16_S1024x1024_1_1_0_0_n_n_wf : DotDims.WF S1024x16 S1024x16 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S16x1024_S1024x16_1_1_0_0_n_n : DotDims S1024x1024 S16x1024 S1024x16 where
  lhsContracting := [1]
  rhsContracting := [1]
  lhsNonContracting := [0]
  rhsNonContracting := [0]
  lhsBatch := []
  rhsBatch := []
  wf := dot_S1024x1024_S16x1024_S1024x16_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4x2048x16 : Shape := ⟨3, ![4, 2048, 16]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4x2048x4096, .f32⟩
  | .hbm, ⟨5, _⟩ => ⟨S4x2048x16, .f32⟩
  | .hbm, ⟨6, _⟩ => ⟨S4x2048x4096, .f32⟩
  | .hbm, ⟨7, _⟩ => ⟨S_, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.LibTileSums.lean ====
import Idealize.ShloMosaic.PureOps.Ideal
import Mathlib.Logic.Equiv.Fin.Basic
import Mathlib.Data.Fintype.BigOperators
import Mathlib.Algebra.BigOperators.Fin

/-!
Sums over the extended reals, reindexed.

Three facts about finite sums in a commutative additive monoid with a multiplication that has a
zero and a one, stated at the extended reals and over plain `Fin`-indexed functions:

* a sum over `A * B` positions is the sum over `A` tiles of the sums over the `B` positions of each
  tile (`sum_tiles`);
* an accumulator that starts from `0 + s 0` and adds `s (j + 1)` at each later step holds the sum of
  the terms seen so far (`fold_eq_sum` and its variants);
* a sum weighted by the indicator of one position picks out that position's term, or is `0` when
  the position lies outside the range (`onehot_sum`, `onehot_sum'`).

Nothing here asks a term to be finite: only associativity and commutativity of `+`, `0 + x = x`,
`0 * x = 0` and `1 * x = x` are used.
-/

namespace Cert.LibTileSums

open scoped BigOperators

/-! ### Tiles -/

/-- Position `r` of tile `i` lies below `A * B`. -/
theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

/-- A sum over `n = A * B` positions, tile by tile: tile `i` holds the positions `i * B + r`. -/
theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

/-- The same with the tile sums named: if `g i` is the sum over tile `i`, the sum of the `g i` is the
    whole sum. -/
theorem sum_tiles_of {A B n : ℕ} (h : A * B = n) (f : Fin n → EReal) (g : Fin A → EReal)
    (hg : ∀ i : Fin A, g i = ∑ r : Fin B, f ⟨i.val * B + r.val, tile_lt h i r⟩) :
    ∑ i : Fin A, g i = ∑ k : Fin n, f k := by
  rw [← sum_tiles h f]
  exact Finset.sum_congr rfl fun i _ => hg i

/-! ### The running sum -/

/-- `0 + x = x`. -/
theorem zero_add_eq (x : EReal) : 0 + x = x := zero_add x

/-- The accumulator by recursion: `0 + s 0` at the first step, the previous value plus the next term
    after it. -/
noncomputable def accum (s : ℕ → EReal) : ℕ → EReal
  | 0 => 0 + s 0
  | j + 1 => accum s j + s (j + 1)

@[simp] theorem accum_zero (s : ℕ → EReal) : accum s 0 = 0 + s 0 := rfl

@[simp] theorem accum_succ (s : ℕ → EReal) (j : ℕ) : accum s (j + 1) = accum s j + s (j + 1) := rfl

/-- The accumulator after step `j` is the sum of the terms `0 … j`. -/
theorem accum_eq_sum (s : ℕ → EReal) (j : ℕ) : accum s j = ∑ k : Fin (j + 1), s k.val := by
  induction j with
  | zero => simp
  | succ j ih =>
    rw [accum_succ, ih, Fin.sum_univ_castSucc (f := fun k : Fin (j + 1 + 1) => s k.val)]
    rfl

/-- Any family that obeys the recursion up to step `m` is the running sum there: if
    `acc 0 = 0 + s 0` and `acc (j + 1) = acc j + s (j + 1)` for `j + 1 < m`, then
    `acc j = ∑ k : Fin (j + 1), s k` for `j < m`. -/
theorem fold_eq_sum (s acc : ℕ → EReal) (m : ℕ) (h0 : acc 0 = 0 + s 0)
    (hs : ∀ j, j + 1 < m → acc (j + 1) = acc j + s (j + 1)) :
    ∀ j, j < m → acc j = ∑ k : Fin (j + 1), s k.val := by
  intro j
  induction j with
  | zero => intro _; rw [h0]; simp
  | succ j ih =>
    intro hj
    rw [hs j hj, ih (Nat.lt_of_succ_lt hj),
      Fin.sum_univ_castSucc (f := fun k : Fin (j + 1 + 1) => s k.val)]
    rfl

/-- The last step of `fold_eq_sum`: after `m + 1` steps the accumulator holds the whole sum. -/
theorem fold_last (s acc : ℕ → EReal) (m : ℕ) (h0 : acc 0 = 0 + s 0)
    (hs : ∀ j, j + 1 < m + 1 → acc (j + 1) = acc j + s (j + 1)) :
    acc m = ∑ k : Fin (m + 1), s k.val :=
  fold_eq_sum s acc (m + 1) h0 hs m (Nat.lt_succ_self m)

/-- The same over `Fin`-indexed steps and terms. -/
theorem fold_fin_eq_sum {m : ℕ} (s acc : Fin (m + 1) → EReal) (h0 : acc 0 = 0 + s 0)
    (hs : ∀ j : Fin m, acc j.succ = acc j.castSucc + s j.succ) :
    acc (Fin.last m) = ∑ k : Fin (m + 1), s k := by
  let s' : ℕ → EReal := fun k => if hk : k < m + 1 then s ⟨k, hk⟩ else 0
  let acc' : ℕ → EReal := fun k => if hk : k < m + 1 then acc ⟨k, hk⟩ else 0
  have h0' : acc' 0 = 0 + s' 0 := by
    simp only [acc', s', Nat.zero_lt_succ, dite_true]
    exact h0
  have hs' : ∀ j, j + 1 < m + 1 → acc' (j + 1) = acc' j + s' (j + 1) := by
    intro j hj
    have hj' : j < m + 1 := Nat.lt_of_succ_lt hj
    simp only [acc', s', hj, hj', dite_true]
    exact hs ⟨j, Nat.lt_of_succ_lt_succ hj⟩
  have h := fold_last s' acc' m h0' hs'
  simp only [acc', s', Nat.lt_succ_self, dite_true] at h
  rw [show Fin.last m = ⟨m, Nat.lt_succ_self m⟩ from rfl, h]
  exact Finset.sum_congr rfl fun k _ => by simp [k.isLt]

/-! ### One position picked out -/

/-- A 32-bit word equals the word of a number below `2 ^ 32` exactly when its value is that number. -/
theorem eq_ofNat_iff (w : BitVec 32) {k : ℕ} (hk : k < 2 ^ 32) :
    w = BitVec.ofNat 32 k ↔ w.toNat = k := by
  constructor
  · intro h; rw [h, BitVec.toNat_ofNat, Nat.mod_eq_of_lt hk]
  · intro h; apply BitVec.eq_of_toNat_eq; rw [h, BitVec.toNat_ofNat, Nat.mod_eq_of_lt hk]

/-- The indicator-weighted sum with the term kept or replaced by `0`: it is the term at the word's
    value when that lies in range, and `0` otherwise. -/
theorem onehot_sum' {n : ℕ} (hn : n ≤ 2 ^ 32) (w : BitVec 32) (h : Fin n → EReal) :
    ∑ k : Fin n, (if w = BitVec.ofNat 32 k.val then h k else 0)
      = if hw : w.toNat < n then h ⟨w.toNat, hw⟩ else 0 := by
  have key : ∀ k : Fin n, w = BitVec.ofNat 32 k.val ↔ w.toNat = k.val := fun k =>
    eq_ofNat_iff w (Nat.lt_of_lt_of_le k.isLt hn)
  by_cases hw : w.toNat < n
  · rw [dif_pos hw, Finset.sum_eq_single (⟨w.toNat, hw⟩ : Fin n)]
    · rw [if_pos ((key _).2 rfl)]
    · intro k _ hk
      rw [if_neg]
      intro hwk
      exact hk (Fin.ext ((key k).1 hwk).symm)
    · intro hmem; exact absurd (Finset.mem_univ _) hmem
  · rw [dif_neg hw]
    refine Finset.sum_eq_zero fun k _ => ?_
    rw [if_neg]
    intro hwk
    exact hw (((key k).1 hwk) ▸ k.isLt)

/-- The indicator-weighted sum with the indicator as a factor `1` or `0`. -/
theorem onehot_sum {n : ℕ} (hn : n ≤ 2 ^ 32) (w : BitVec 32) (h : Fin n → EReal) :
    ∑ k : Fin n, (if w = BitVec.ofNat 32 k.val then (1 : EReal) else 0) * h k
      = if hw : w.toNat < n then h ⟨w.toNat, hw⟩ else 0 := by
  rw [← onehot_sum' hn w h]
  refine Finset.sum_congr rfl fun k _ => ?_
  by_cases hk : w = BitVec.ofNat 32 k.val
  · rw [if_pos hk, if_pos hk, one_mul]
  · rw [if_neg hk, if_neg hk, zero_mul]

/-- The factor on the right. -/
theorem onehot_sum_right {n : ℕ} (hn : n ≤ 2 ^ 32) (w : BitVec 32) (h : Fin n → EReal) :
    ∑ k : Fin n, h k * (if w = BitVec.ofNat 32 k.val then (1 : EReal) else 0)
      = if hw : w.toNat < n then h ⟨w.toNat, hw⟩ else 0 := by
  rw [← onehot_sum hn w h]
  exact Finset.sum_congr rfl fun k _ => mul_comm _ _

end Cert.LibTileSums
-- ==== Proof.Spec.lean ====
import Idealize.ShloMosaic.PureOps.Ideal
import Idealize.ShloMosaic.Lib.ValueIdx
import proofs.«102840_j21388937134483_1_alg».proof.Proof.LibTileSums
import Mathlib.Algebra.BigOperators.Fin

/-!
The low-rank-adapted linear layer, as mathematics.

For a matrix of activations `X` (one row per token), a weight matrix `W`, and the two low-rank factors
`A` and `B`, the layer's output at token `r` and output feature `o` is

  `⟨X r, W o⟩ + (∑ q, ⟨X r, A q⟩ * B o q) * 2`

where `⟨·, ·⟩` is the inner product of two rows over the shared input axis and `2` is the scaling
`alpha / rank`. Everything is over the extended reals; no entry is asked to be finite.

A row inner product over `A * T` columns is the sum over the `A` column tiles of width `T` of the
tile inner products: only associativity and commutativity of `+` are used. This is the one law that
joins a computation that accumulates tile by tile to one that sums the whole axis at once.

Entries are addressed by natural numbers (`ent`), `0` outside the matrix, so that a row or column
number built by arithmetic (`tile * width + offset`) needs no bound carried beside it.
-/

namespace Cert.Lora

open scoped BigOperators
open Idealize.ShloMosaic Idealize.ShloMosaic.ValueIdx

/-- A matrix of extended reals with `R` rows and `C` columns. -/
abbrev Mat (R C : ℕ) : Type := (⟨2, ![R, C]⟩ : Shape).Idx → EReal

/-- A stack of `N` matrices (batch, token, feature). -/
abbrev Ten (N R C : ℕ) : Type := (⟨3, ![N, R, C]⟩ : Shape).Idx → EReal

/-- The entry at row `r`, column `k`, both counted as natural numbers; `0` outside the matrix. -/
noncomputable def ent {R C : ℕ} (M : Mat R C) (r k : ℕ) : EReal :=
  if h : r < R ∧ k < C then M (ix2 ⟨r, h.1⟩ ⟨k, h.2⟩) else 0

/-- Inside the matrix `ent` is the entry. -/
theorem ent_of_lt {R C : ℕ} (M : Mat R C) {r k : ℕ} (hr : r < R) (hk : k < C) :
    ent M r k = M (ix2 ⟨r, hr⟩ ⟨k, hk⟩) := by
  unfold ent; rw [dif_pos ⟨hr, hk⟩]

theorem ent_fin {R C : ℕ} (M : Mat R C) (r : Fin R) (k : Fin C) : ent M r.val k.val = M (ix2 r k) :=
  ent_of_lt M r.isLt k.isLt

/-- The inner product of row `r` of `M` with row `o` of `N` over the whole shared axis. -/
noncomputable def rowDot {R R' C : ℕ} (M : Mat R C) (N : Mat R' C) (r o : ℕ) : EReal :=
  ∑ k : Fin C, ent M r k.val * ent N o k.val

/-- The same inner product restricted to column tile `kt` of width `T`: columns `kt * T + kk`. -/
noncomputable def tileDot {R R' C : ℕ} (T : ℕ) (M : Mat R C) (N : Mat R' C) (r o kt : ℕ) : EReal :=
  ∑ kk : Fin T, ent M r (kt * T + kk.val) * ent N o (kt * T + kk.val)

/-- The tile inner products of all `A` tiles add up to the whole inner product. -/
theorem sum_tileDot {R R' C : ℕ} (A T : ℕ) (h : A * T = C) (M : Mat R C) (N : Mat R' C) (r o : ℕ) :
    ∑ kt ∈ Finset.range A, tileDot T M N r o kt = rowDot M N r o := by
  rw [Finset.sum_range]
  exact Cert.LibTileSums.sum_tiles h (fun k : Fin C => ent M r k.val * ent N o k.val)

/-- The first partial sum is the first tile. -/
theorem partial_one {R R' C : ℕ} (T : ℕ) (M : Mat R C) (N : Mat R' C) (r o : ℕ) :
    ∑ kt ∈ Finset.range (0 + 1), tileDot T M N r o kt = tileDot T M N r o 0 := by
  rw [Nat.zero_add, Finset.sum_range_one]

/-- Adding the next tile to a partial sum. -/
theorem partial_succ {R R' C : ℕ} (T : ℕ) (M : Mat R C) (N : Mat R' C) (r o j : ℕ) :
    ∑ kt ∈ Finset.range (j + 1 + 1), tileDot T M N r o kt
      = ∑ kt ∈ Finset.range (j + 1), tileDot T M N r o kt + tileDot T M N r o (j + 1) :=
  Finset.sum_range_succ _ _

/-- The scaling `alpha / rank = 2`, as the single-precision word the programs carry. -/
noncomputable def two : EReal := Ideal.ofBits .f32 0x40000000#32

/-- The layer's output at token `r` and feature `o`, over matrices addressed by natural numbers. -/
noncomputable def out {M K Q O : ℕ} (X : Mat M K) (W : Mat O K) (A : Mat Q K) (B : Mat O Q) (r o : ℕ) : EReal :=
  rowDot X W r o + (∑ q : Fin Q, rowDot X A r q.val * ent B o q.val) * two

/-- The layer's output on a batch of token sequences: the same at batch `b`, token `s`, feature `o`,
    with the token's activations read from the stack directly. -/
noncomputable def outBatch {N S K Q O : ℕ} (x : Ten N S K) (W : Mat O K) (A : Mat Q K) (B : Mat O Q) : Ten N S O :=
  fun i => (∑ k : Fin K, x (ix3 (i 0) (i 1) k) * W (ix2 (i 2) k))
    + (∑ q : Fin Q, (∑ k : Fin K, x (ix3 (i 0) (i 1) k) * A (ix2 q k)) * B (ix2 (i 2) q)) * two

/-- If the matrix `X` is the stack `x` with batch and token merged row-major (row `b * S + s`), the
    layer's output on `X` at that row is its output on the stack. -/
theorem out_eq_outBatch {N S K Q O : ℕ} (x : Ten N S K) (X : Mat (N * S) K) (W : Mat O K) (A : Mat Q K) (B : Mat O Q)
    (hX : ∀ (b : Fin N) (s : Fin S) (k : Fin K), ent X (b.val * S + s.val) k.val = x (ix3 b s k))
    (b : Fin N) (s : Fin S) (o : Fin O) :
    out X W A B (b.val * S + s.val) o.val = outBatch x W A B (ix3 b s o) := by
  unfold out outBatch rowDot
  simp only [hX, ent_fin]
  rfl

end Cert.Lora
-- ==== Proof.RefValue.lean ====
import proofs.«102840_j21388937134483_1_alg».proof.Proof.Gen.ReferenceIdeal.Read
import proofs.«102840_j21388937134483_1_alg».proof.Proof.Spec

/-!
The reference program computes the layer's output on the stack of token sequences.

Its seven operations are three contractions, a scalar `2` broadcast, a product and a sum. Read at
batch `b`, token `s`, feature `o`: the first contraction is `∑ k, x b s k * W o k`; the second, at
`(b, s, q)`, is `∑ k, x b s k * A q k`; the third contracts that with `B o q` over `q`; the result is
the first plus twice the third. That is `Cert.Lora.outBatch` term for term.
-/

noncomputable section

namespace Cert.ReferenceIdeal.RefValue

open Cert.ReferenceIdeal Cert.ReferenceIdeal.Read Idealize.ShloMosaic Idealize.ShloMosaic.ValueIdx

/-- Where the first contraction reads its left operand: same batch and token, column `k`. -/
theorem lidx0 (b : Fin 4) (s : Fin 2048) (o : Fin 4096) (k : Fin 4096) : lidx_main_v0 (ix3 b s o) k = ix3 b s k :=
  funext fun a => by match a with | ⟨0, _⟩ => rfl | ⟨1, _⟩ => rfl | ⟨2, _⟩ => rfl
/-- Where it reads its right operand: row `o` of the weights, column `k`. -/
theorem ridx0 (b : Fin 4) (s : Fin 2048) (o : Fin 4096) (k : Fin 4096) : ridx_main_v0 (ix3 b s o) k = ix2 o k :=
  funext fun a => by match a with | ⟨0, _⟩ => rfl | ⟨1, _⟩ => rfl
/-- The second contraction, at rank index `q`: the same row of activations, -/
theorem lidx1 (b : Fin 4) (s : Fin 2048) (q : Fin 16) (k : Fin 4096) : lidx_main_v1 (ix3 b s q) k = ix3 b s k :=
  funext fun a => by match a with | ⟨0, _⟩ => rfl | ⟨1, _⟩ => rfl | ⟨2, _⟩ => rfl
/-- against row `q` of the first low-rank factor. -/
theorem ridx1 (b : Fin 4) (s : Fin 2048) (q : Fin 16) (k : Fin 4096) : ridx_main_v1 (ix3 b s q) k = ix2 q k :=
  funext fun a => by match a with | ⟨0, _⟩ => rfl | ⟨1, _⟩ => rfl
/-- The third contraction reads the second's result at `(b, s, q)`, -/
theorem lidx2 (b : Fin 4) (s : Fin 2048) (o : Fin 4096) (q : Fin 16) : lidx_main_v2 (ix3 b s o) q = ix3 b s q :=
  funext fun a => by match a with | ⟨0, _⟩ => rfl | ⟨1, _⟩ => rfl | ⟨2, _⟩ => rfl
/-- against entry `(o, q)` of the second low-rank factor. -/
theorem ridx2 (b : Fin 4) (s : Fin 2048) (o : Fin 4096) (q : Fin 16) : ridx_main_v2 (ix3 b s o) q = ix2 o q :=
  funext fun a => by match a with | ⟨0, _⟩ => rfl | ⟨1, _⟩ => rfl

/-- The reference's result is the layer's output on the stack. -/
theorem result_eq (x : Cert.Lora.Ten 4 2048 4096) (W : Cert.Lora.Mat 4096 4096) (A : Cert.Lora.Mat 16 4096) (B : Cert.Lora.Mat 4096 16) :
    val_main_v5 (F := Ideal) x W A B = Cert.Lora.outBatch x W A B := by
  funext i
  obtain ⟨b, s, o, rfl⟩ : ∃ (b : Fin 4) (s : Fin 2048) (o : Fin 4096), i = ix3 b s o := ⟨i 0, i 1, i 2, eq_ix3 i⟩
  rw [val_main_v5_apply, val_main_v4_apply, val_main_v0_apply, val_main_v2_apply, val_main_v3_apply, val_main_cst_apply]
  simp only [lidx0, ridx0, lidx2, ridx2, val_main_v1_apply, lidx1, ridx1]
  rfl

end Cert.ReferenceIdeal.RefValue

end
-- ==== Proof.KernelPieces.lean ====
import proofs.«102840_j21388937134483_1_alg».proof.Proof.Gen.KernelIdeal.Frame
import Idealize.ShloMosaic.Lib.Pipeline.Value
import Idealize.ShloMosaic.Lib.Tactic

/-!
What one call of the kernel body leaves behind, case by case.

The body keeps two accumulators between grid points: the base accumulator (a 1024 × 1024 tile of
`x · Wᵀ`) and the low-rank accumulator (a 1024 × 16 tile of `x · Aᵀ`). At the first point of a
reduction (reduction coordinate `0`) it zeroes both and then adds this point's tile products; at the
later points it adds this point's tile products to what the point before left; at the last point
(reduction coordinate `3`) it also writes the output tile: the base accumulator plus twice the
low-rank accumulator contracted with the block of `B`.

Each statement below says that what a case leaves in a buffer is one of the body's pure terms
(`k0_pay4`: base update, `k0_pay5`: low-rank update, `k0_pay6`: the output tile; `k0_pay1`,
`k0_pay2`: the zero tiles) of the case's input blocks and of the accumulators it was handed.
-/

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

section
variable (c : Dev nD) (i : grid0.Coords)
  (arg3 : Memref sig .tc .vmem S1024x1024 .f32) (harg3 : arg3.IsWhole)
  (arg4 : Memref sig .tc .vmem S1024x1024 .f32) (harg4 : arg4.IsWhole)
  (arg5 : Memref sig .tc .vmem S16x1024 .f32) (harg5 : arg5.IsWhole)
  (arg6 : Memref sig .tc .vmem S1024x16 .f32) (harg6 : arg6.IsWhole)
  (arg7 : Memref sig .tc .vmem S1024x1024 .f32) (harg7 : arg7.IsWhole)
  (arg8 : Memref sig .tc .vmem S1024x1024 .f32) (harg8 : arg8.IsWhole)
  (arg9 : Memref sig .tc .vmem S1024x16 .f32) (harg9 : arg9.IsWhole)
  (x0 : Vec F S1024x1024 .f32) (x1 : Vec F S1024x1024 .f32) (x2 : Vec F S16x1024 .f32) (x3 : Vec F S1024x16 .f32)
  (xs0 : Vec F S1024x1024 .f32) (xs1 : Vec F S1024x16 .f32)

/-- A later point that is not the last: the base accumulator it was handed, plus this point's tile of `x · Wᵀ`. -/
theorem base_B (hc0 : ¬cond0_0 i) (hc1 : ¬cond0_1 i) :
    sout0_B_0 c i arg3 harg3 arg4 harg4 arg5 harg5 arg6 harg6 arg7 harg7 arg8 harg8 arg9 harg9 hc0 hc1 x0 x1 x2 x3 xs0 xs1
      = k0_pay4 x0 x1 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg3.read_unread, harg4.read_unread, harg8.read_unread, View.ld_unit_zero (S := S1024x1024) hz]

/-- … and the low-rank accumulator it was handed, plus this point's tile of `x · Aᵀ`. -/
theorem low_B (hc0 : ¬cond0_0 i) (hc1 : ¬cond0_1 i) :
    sout0_B_1 c i arg3 harg3 arg4 harg4 arg5 harg5 arg6 harg6 arg7 harg7 arg8 harg8 arg9 harg9 hc0 hc1 x0 x1 x2 x3 xs0 xs1
      = k0_pay5 x0 x2 xs1 := by
  unfold sout0_B_1
  rw [View.read_writes_eq_canon _ _ _ (scover0_B_1 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg3.read_unread, harg5.read_unread, harg9.read_unread, View.ld_unit_zero (S := S1024x1024) hz,
    View.ld_unit_zero (S := S16x1024) hz, View.ld_unit_zero (S := S1024x16) hz]

/-- The last point of a reduction updates the base accumulator the same way, -/
theorem base_C (hc0 : ¬cond0_0 i) (hc1 : cond0_1 i) :
    sout0_C_0 c i arg3 harg3 arg4 harg4 arg5 harg5 arg6 harg6 arg7 harg7 arg8 harg8 arg9 harg9 hc0 hc1 x0 x1 x2 x3 xs0 xs1
      = k0_pay4 x0 x1 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg4.read_unread, harg8.read_unread, View.ld_unit_zero (S := S1024x1024) hz]

/-- and the low-rank accumulator the same way; -/
theorem low_C (hc0 : ¬cond0_0 i) (hc1 : cond0_1 i) :
    sout0_C_1 c i arg3 harg3 arg4 harg4 arg5 harg5 arg6 harg6 arg7 harg7 arg8 harg8 arg9 harg9 hc0 hc1 x0 x1 x2 x3 xs0 xs1
      = k0_pay5 x0 x2 xs1 := by
  unfold sout0_C_1
  rw [View.read_writes_eq_canon _ _ _ (scover0_C_1 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg5.read_unread, harg9.read_unread, View.ld_unit_zero (S := S1024x1024) hz,
    View.ld_unit_zero (S := S16x1024) hz, View.ld_unit_zero (S := S1024x16) hz]

/-- then it writes the output tile from the two accumulators AS JUST UPDATED and the block of `B`. -/
theorem out_C (hc0 : ¬cond0_0 i) (hc1 : cond0_1 i) :
    out0_C_4 c i arg3 harg3 arg4 harg4 arg5 harg5 arg6 harg6 arg7 harg7 arg8 harg8 arg9 harg9 hc0 hc1 x0 x1 x2 x3 xs0 xs1
      = k0_pay6 x3 (k0_pay5 x0 x2 xs1) (k0_pay4 x0 x1 xs0) := by
  unfold out0_C_4
  rw [View.read_writes_eq_canon _ _ _ (cover0_C_4 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg4.read_unread, harg5.read_unread, harg6.read_unread, harg8.read_unread, harg9.read_unread,
    View.ld_unit_zero (S := S1024x1024) hz, View.ld_unit_zero (S := S16x1024) hz, View.ld_unit_zero (S := S1024x16) hz,
    View.readCov_unit_zero (S := S1024x1024) _ hz, View.readCov_unit_zero (S := S1024x16) _ hz]

/-- The first point of a reduction: the zero tile, plus this point's tile of `x · Wᵀ`. -/
theorem base_A (hc0 : cond0_0 i) (hc1 : ¬cond0_1 i) :
    sout0_A_0 c i arg3 harg3 arg4 harg4 arg5 harg5 arg6 harg6 arg7 harg7 arg8 harg8 arg9 harg9 hc0 hc1 x0 x1 x2 x3
      = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1024) hz]
  simp only [View.readAt_eq_ld, harg3.read_unread, harg4.read_unread, View.ld_unit_zero (S := S1024x1024) hz,
    View.readCov_unit_zero (S := S1024x1024) _ hz]

/-- … and the zero tile, plus this point's tile of `x · Aᵀ`. -/
theorem low_A (hc0 : cond0_0 i) (hc1 : ¬cond0_1 i) :
    sout0_A_1 c i arg3 harg3 arg4 harg4 arg5 harg5 arg6 harg6 arg7 harg7 arg8 harg8 arg9 harg9 hc0 hc1 x0 x1 x2 x3
      = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x16) hz]
  simp only [View.readAt_eq_ld, harg3.read_unread, harg5.read_unread, View.ld_unit_zero (S := S1024x1024) hz,
    View.ld_unit_zero (S := S16x1024) hz, View.readCov_unit_zero (S := S1024x16) _ hz]

end

end Cert.KernelIdeal.Pieces

end
-- ==== Proof.PayloadAt.lean ====
import proofs.«102840_j21388937134483_1_alg».proof.Proof.Gen.KernelIdeal.Skeleton
import Idealize.ShloMosaic.Lib.Pipeline.Value
import Idealize.ShloMosaic.Lib.ValueIdx
import Idealize.ShloMosaic.PureOps.Ideal.Laws

/-!
The body's pure terms, read at one entry, over the extended reals.

All three matrix products in the body contract the LAST axis of both operands (`x · Wᵀ`, `x · Aᵀ`,
`r · Bᵀ`), into a zero accumulator, and the operands pass through a change of float format that is
the identity on extended reals. So at row `p` and column `q`:

* the base update is `acc p q + ∑ k, x p k * w q k`;
* the low-rank update is `acc p q + ∑ k, x p k * a q k`;
* the output tile is `acc p q + (∑ k, r p k * b q k) * 2`;
* the two reset tiles are `0`.
-/

noncomputable section

namespace Cert.KernelIdeal.PayloadAt

open scoped BigOperators
open Idealize.ShloMosaic Idealize.ShloMosaic.ValueIdx
open Cert.KernelIdeal Cert.KernelIdeal.Gen

/-! ### The product of a block of `x` with a block of `W`: where each factor is read -/

theorem lhs_xw_0 (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_xw_1 (j : S1024x1024.Idx) (q : dot_S1024x1024_S1024x1024_S1024x1024_1_1_0_0_n_n.contr.Idx) :
    (dot_S1024x1024_S1024x1024_S1024x1024_1_1_0_0_n_n.lhsIdx j q 1).val = (q ⟨0, by decide⟩).val :=
  dot_S1024x1024_S1024x1024_S1024x1024_1_1_0_0_n_n.lhsIdx_val_of_single rfl j q
theorem rhs_xw_0 (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_xw_1 (j : S1024x1024.Idx) (q : dot_S1024x1024_S1024x1024_S1024x1024_1_1_0_0_n_n.contr.Idx) :
    (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-- Into a zero accumulator, entry `(p, q)` of `l · rᵀ` is the inner product of row `p` of `l` with row `q` of `r`. -/
theorem matmul_xw (l : FVec Ideal S1024x1024 .bf16) (r : FVec Ideal S1024x1024 .bf16) (p : Fin 1024) (q : Fin 1024) :
    matmul dot_S1024x1024_S1024x1024_S1024x1024_1_1_0_0_n_n none l r (constant (F := Ideal) S1024x1024 .f32 0x00000000#32) (ix2 p q)
      = ∑ k : Fin 1024, l (ix2 p k) * r (ix2 q k) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_xw_0 _ _
    | ⟨1, _⟩ => exact (lhs_xw_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_xw_0 _ _
    | ⟨1, _⟩ => exact (rhs_xw_1 _ _).trans hk)
  rw [el, er]

/-! ### The product of a block of `x` with a block of `A` -/

theorem lhs_xa_0 (j : S1024x16.Idx) (q : dot_S1024x1024_S16x1024_S1024x16_1_1_0_0_n_n.contr.Idx) :
    (dot_S1024x1024_S16x1024_S1024x16_1_1_0_0_n_n.lhsIdx j q 0).val = (j 0).val := by
  unfold DotDims.lhsIdx
  rw [dif_neg (show ¬(0 : Fin S1024x1024.rank) ∈ dot_S1024x1024_S16x1024_S1024x16_1_1_0_0_n_n.lhsBatch by decide), dif_pos (show (0 : Fin S1024x1024.rank) ∈ dot_S1024x1024_S16x1024_S1024x16_1_1_0_0_n_n.lhsNonContracting by decide)]
  rfl
theorem lhs_xa_1 (j : S1024x16.Idx) (q : dot_S1024x1024_S16x1024_S1024x16_1_1_0_0_n_n.contr.Idx) :
    (dot_S1024x1024_S16x1024_S1024x16_1_1_0_0_n_n.lhsIdx j q 1).val = (q ⟨0, by decide⟩).val :=
  dot_S1024x1024_S16x1024_S1024x16_1_1_0_0_n_n.lhsIdx_val_of_single rfl j q
theorem rhs_xa_0 (j : S1024x16.Idx) (q : dot_S1024x1024_S16x1024_S1024x16_1_1_0_0_n_n.contr.Idx) :
    (dot_S1024x1024_S16x1024_S1024x16_1_1_0_0_n_n.rhsIdx j q 0).val = (j 1).val := by
  unfold DotDims.rhsIdx
  rw [dif_neg (show ¬(0 : Fin S16x1024.rank) ∈ dot_S1024x1024_S16x1024_S1024x16_1_1_0_0_n_n.rhsBatch by decide), dif_pos (show (0 : Fin S16x1024.rank) ∈ dot_S1024x1024_S16x1024_S1024x16_1_1_0_0_n_n.rhsNonContracting by decide)]
  rfl
theorem rhs_xa_1 (j : S1024x16.Idx) (q : dot_S1024x1024_S16x1024_S1024x16_1_1_0_0_n_n.contr.Idx) :
    (dot_S1024x1024_S16x1024_S1024x16_1_1_0_0_n_n.rhsIdx j q 1).val = (q ⟨0, by decide⟩).val :=
  dot_S1024x1024_S16x1024_S1024x16_1_1_0_0_n_n.rhsIdx_val_of_single rfl j q

/-- The same for the 16-row factor: entry `(p, q)` is row `p` of `l` against row `q` of `r`. -/
theorem matmul_xa (l : FVec Ideal S1024x1024 .bf16) (r : FVec Ideal S16x1024 .bf16) (p : Fin 1024) (q : Fin 16) :
    matmul dot_S1024x1024_S16x1024_S1024x16_1_1_0_0_n_n none l r (constant (F := Ideal) S1024x16 .f32 0x00000000#32) (ix2 p q)
      = ∑ k : Fin 1024, l (ix2 p k) * r (ix2 q k) := by
  simp only [matmul]
  rw [Ideal.matmul_constant_zero_apply, ← Equiv.sum_comp (contrEquiv1 dot_S1024x1024_S16x1024_S1024x16_1_1_0_0_n_n 1024 rfl rfl).symm]
  refine Finset.sum_congr rfl fun k _ => ?_
  have hk := contrEquiv1_symm_val dot_S1024x1024_S16x1024_S1024x16_1_1_0_0_n_n 1024 rfl rfl k
  have el : dot_S1024x1024_S16x1024_S1024x16_1_1_0_0_n_n.lhsIdx (ix2 p q) ((contrEquiv1 dot_S1024x1024_S16x1024_S1024x16_1_1_0_0_n_n 1024 rfl rfl).symm k) = ix2 p k := funext fun a => Fin.ext (by
    match a with
    | ⟨0, _⟩ => exact lhs_xa_0 _ _
    | ⟨1, _⟩ => exact (lhs_xa_1 _ _).trans hk)
  have er : dot_S1024x1024_S16x1024_S1024x16_1_1_0_0_n_n.rhsIdx (ix2 p q) ((contrEquiv1 dot_S1024x1024_S16x1024_S1024x16_1_1_0_0_n_n 1024 rfl rfl).symm k) = ix2 q k := funext fun a => Fin.ext (by
    match a with
    | ⟨0, _⟩ => exact rhs_xa_0 _ _
    | ⟨1, _⟩ => exact (rhs_xa_1 _ _).trans hk)
  rw [el, er]

/-! ### The product of the low-rank accumulator with a block of `B` -/

theorem lhs_rb_0 (j : S1024x1024.Idx) (q : dot_S1024x16_S1024x16_S1024x1024_1_1_0_0_n_n.contr.Idx) :
    (dot_S1024x16_S1024x16_S1024x1024_1_1_0_0_n_n.lhsIdx j q 0).val = (j 0).val := by
  unfold DotDims.lhsIdx
  rw [dif_neg (show ¬(0 : Fin S1024x16.rank) ∈ dot_S1024x16_S1024x16_S1024x1024_1_1_0_0_n_n.lhsBatch by decide), dif_pos (show (0 : Fin S1024x16.rank) ∈ dot_S1024x16_S1024x16_S1024x1024_1_1_0_0_n_n.lhsNonContracting by decide)]
  rfl
theorem lhs_rb_1 (j : S1024x1024.Idx) (q : dot_S1024x16_S1024x16_S1024x1024_1_1_0_0_n_n.contr.Idx) :
    (dot_S1024x16_S1024x16_S1024x1024_1_1_0_0_n_n.lhsIdx j q 1).val = (q ⟨0, by decide⟩).val :=
  dot_S1024x16_S1024x16_S1024x1024_1_1_0_0_n_n.lhsIdx_val_of_single rfl j q
theorem rhs_rb_0 (j : S1024x1024.Idx) (q : dot_S1024x16_S1024x16_S1024x1024_1_1_0_0_n_n.contr.Idx) :
    (dot_S1024x16_S1024x16_S1024x1024_1_1_0_0_n_n.rhsIdx j q 0).val = (j 1).val := by
  unfold DotDims.rhsIdx
  rw [dif_neg (show ¬(0 : Fin S1024x16.rank) ∈ dot_S1024x16_S1024x16_S1024x1024_1_1_0_0_n_n.rhsBatch by decide), dif_pos (show (0 : Fin S1024x16.rank) ∈ dot_S1024x16_S1024x16_S1024x1024_1_1_0_0_n_n.rhsNonContracting by decide)]
  rfl
theorem rhs_rb_1 (j : S1024x1024.Idx) (q : dot_S1024x16_S1024x16_S1024x1024_1_1_0_0_n_n.contr.Idx) :
    (dot_S1024x16_S1024x16_S1024x1024_1_1_0_0_n_n.rhsIdx j q 1).val = (q ⟨0, by decide⟩).val :=
  dot_S1024x16_S1024x16_S1024x1024_1_1_0_0_n_n.rhsIdx_val_of_single rfl j q

/-- And for the rank-16 contraction: entry `(p, q)` is row `p` of `l` against row `q` of `r`, over the 16 rank indices. -/
theorem matmul_rb (l : FVec Ideal S1024x16 .bf16) (r : FVec Ideal S1024x16 .bf16) (p : Fin 1024) (q : Fin 1024) :
    matmul dot_S1024x16_S1024x16_S1024x1024_1_1_0_0_n_n none l r (constant (F := Ideal) S1024x1024 .f32 0x00000000#32) (ix2 p q)
      = ∑ k : Fin 16, l (ix2 p k) * r (ix2 q k) := by
  simp only [matmul]
  rw [Ideal.matmul_constant_zero_apply, ← Equiv.sum_comp (contrEquiv1 dot_S1024x16_S1024x16_S1024x1024_1_1_0_0_n_n 16 rfl rfl).symm]
  refine Finset.sum_congr rfl fun k _ => ?_
  have hk := contrEquiv1_symm_val dot_S1024x16_S1024x16_S1024x1024_1_1_0_0_n_n 16 rfl rfl k
  have el : dot_S1024x16_S1024x16_S1024x1024_1_1_0_0_n_n.lhsIdx (ix2 p q) ((contrEquiv1 dot_S1024x16_S1024x16_S1024x1024_1_1_0_0_n_n 16 rfl rfl).symm k) = ix2 p k := funext fun a => Fin.ext (by
    match a with
    | ⟨0, _⟩ => exact lhs_rb_0 _ _
    | ⟨1, _⟩ => exact (lhs_rb_1 _ _).trans hk)
  have er : dot_S1024x16_S1024x16_S1024x1024_1_1_0_0_n_n.rhsIdx (ix2 p q) ((contrEquiv1 dot_S1024x16_S1024x16_S1024x1024_1_1_0_0_n_n 16 rfl rfl).symm k) = ix2 q k := funext fun a => Fin.ext (by
    match a with
    | ⟨0, _⟩ => exact rhs_rb_0 _ _
    | ⟨1, _⟩ => exact (rhs_rb_1 _ _).trans hk)
  rw [el, er]

/-! ### The payloads -/

/-- The reset tile of the base accumulator is zero everywhere. -/
theorem pay1_apply (p q : Fin 1024) : (k0_pay1 (F := Ideal)) (ix2 p q) = 0 := by
  unfold k0_pay1
  simp only [shapeCast_self]
  exact Ideal.ofBits_zero_f32

/-- The reset tile of the low-rank accumulator is zero everywhere. -/
theorem pay2_apply (p : Fin 1024) (q : Fin 16) : (k0_pay2 (F := Ideal)) (ix2 p q) = 0 := by
  unfold k0_pay2
  simp only [shapeCast_self]
  exact Ideal.ofBits_zero_f32

/-- The base update at `(p, q)`: what was there, plus row `p` of the `x` block against row `q` of the `W` block. -/
theorem pay4_apply (x0 x1 acc : Vec Ideal S1024x1024 .f32) (p q : Fin 1024) :
    k0_pay4 (F := Ideal) x0 x1 acc (ix2 p q) = acc (ix2 p q) + ∑ k : Fin 1024, x0 (ix2 p k) * x1 (ix2 q k) := by
  unfold k0_pay4 k0_pay3
  simp only [shapeCast_self]
  show acc (ix2 p q) + matmul dot_S1024x1024_S1024x1024_S1024x1024_1_1_0_0_n_n none _ _ (constant (F := Ideal) S1024x1024 .f32 0x00000000#32) (ix2 p q) = _
  rw [matmul_xw]
  rfl

/-- The low-rank update at `(p, q)`: what was there, plus row `p` of the `x` block against row `q` of the `A` block. -/
theorem pay5_apply (x0 : Vec Ideal S1024x1024 .f32) (x2 : Vec Ideal S16x1024 .f32) (acc : Vec Ideal S1024x16 .f32) (p : Fin 1024) (q : Fin 16) :
    k0_pay5 (F := Ideal) x0 x2 acc (ix2 p q) = acc (ix2 p q) + ∑ k : Fin 1024, x0 (ix2 p k) * x2 (ix2 q k) := by
  unfold k0_pay5 k0_pay3
  simp only [shapeCast_self]
  show acc (ix2 p q) + matmul dot_S1024x1024_S16x1024_S1024x16_1_1_0_0_n_n none _ _ (constant (F := Ideal) S1024x16 .f32 0x00000000#32) (ix2 p q) = _
  rw [matmul_xa]
  rfl

/-- The output tile at `(p, q)`: the base accumulator there, plus twice row `p` of the low-rank accumulator against
    row `q` of the `B` block. -/
theorem pay6_apply (x3 low : Vec Ideal S1024x16 .f32) (acc : Vec Ideal S1024x1024 .f32) (p q : Fin 1024) :
    k0_pay6 (F := Ideal) x3 low acc (ix2 p q)
      = acc (ix2 p q) + (∑ k : Fin 16, low (ix2 p k) * x3 (ix2 q k)) * Ideal.ofBits .f32 0x40000000#32 := by
  unfold k0_pay6
  show acc (ix2 p q) + matmul dot_S1024x16_S1024x16_S1024x1024_1_1_0_0_n_n none _ _ (constant (F := Ideal) S1024x1024 .f32 0x00000000#32) (ix2 p q) * _ = _
  rw [matmul_rb]
  rfl

end Cert.KernelIdeal.PayloadAt

end
-- ==== Proof.BlockReads.lean ====
import proofs.«102840_j21388937134483_1_alg».proof.Proof.Gen.KernelIdeal.Frame
import proofs.«102840_j21388937134483_1_alg».proof.Proof.Spec
import Idealize.ShloMosaic.Lib.Pipeline.Value
import Idealize.ShloMosaic.Lib.ValueIdx

/-!
Which entries of the arrays a grid point sees.

The grid has 8 × 4 × 4 points `(i, j, k)`, visited in row-major order: point number `t` has
`i = t / 16`, `j = (t / 4) % 4`, `k = t % 4`. At that point the body sees

* rows `i * 1024 …` and columns `k * 1024 …` of the activations `X` (8192 × 4096),
* rows `j * 1024 …` and columns `k * 1024 …` of the weights `W` (4096 × 4096),
* all 16 rows and columns `k * 1024 …` of the factor `A` (16 × 4096),
* rows `j * 1024 …` and all 16 columns of the factor `B` (4096 × 16),

and the output tile it writes at `k = 3` is rows `i * 1024 …`, columns `j * 1024 …` of the
result (8192 × 4096).
-/

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen
open Cert.Lora (Mat ent)

variable (m : (ℓ : Loc nD τ sig) → Buf (Elt Ideal) ℓ)

/-! ### The arrays as the region finds them, and the blocks, at their literal types -/

/-- The activations, one row per token (the stack of sequences flattened by the program before the region). -/
abbrev X (c : Dev nD) : Mat 8192 4096 := V m c main_v0
/-- The base weights. -/
abbrev Wm (c : Dev nD) : Mat 4096 4096 := V m c main_arg1
/-- The first low-rank factor. -/
abbrev Am (c : Dev nD) : Mat 16 4096 := V m c main_arg2
/-- The second low-rank factor. -/
abbrev Bm (c : Dev nD) : Mat 4096 16 := V m c main_arg3

/-- The block of each array at point `t`. -/
abbrev xblk (c : Dev nD) (t : Fin cfg0.N) : Vec Ideal S1024x1024 .f32 := iblk m c 0 t
abbrev wblk (c : Dev nD) (t : Fin cfg0.N) : Vec Ideal S1024x1024 .f32 := iblk m c 1 t
abbrev ablk (c : Dev nD) (t : Fin cfg0.N) : Vec Ideal S16x1024 .f32 := iblk m c 2 t
abbrev bblk (c : Dev nD) (t : Fin cfg0.N) : Vec Ideal S1024x16 .f32 := iblk m c 3 t

/-! ### The block numbers, decided over the 128 points -/

theorem idx_x : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)
theorem idx_w : ∀ t : Fin cfg0.N, win0_1.index t (0 : Fin 2) = t.val / 4 % 4 ∧ win0_1.index t (1 : Fin 2) = t.val % 4 :=
  (by decide +kernel : ∀ t : Fin grid0.N, win0_1.index t (0 : Fin 2) = t.val / 4 % 4 ∧ win0_1.index t (1 : Fin 2) = t.val % 4)
theorem idx_a : ∀ t : Fin cfg0.N, win0_2.index t (0 : Fin 2) = 0 ∧ win0_2.index t (1 : Fin 2) = t.val % 4 :=
  (by decide +kernel : ∀ t : Fin grid0.N, win0_2.index t (0 : Fin 2) = 0 ∧ win0_2.index t (1 : Fin 2) = t.val % 4)
theorem idx_b : ∀ t : Fin cfg0.N, win0_3.index t (0 : Fin 2) = t.val / 4 % 4 ∧ win0_3.index t (1 : Fin 2) = 0 :=
  (by decide +kernel : ∀ t : Fin grid0.N, win0_3.index t (0 : Fin 2) = t.val / 4 % 4 ∧ win0_3.index t (1 : Fin 2) = 0)
theorem idx_o : ∀ t : Fin cfg0.N, win0_4.index t (0 : Fin 2) = t.val / 16 ∧ win0_4.index t (1 : Fin 2) = t.val / 4 % 4 :=
  (by decide +kernel : ∀ t : Fin grid0.N, win0_4.index t (0 : Fin 2) = t.val / 16 ∧ win0_4.index t (1 : Fin 2) = t.val / 4 % 4)

theorem t_lt (t : Fin cfg0.N) : t.val < 128 := lt_of_lt_of_eq t.isLt N_0

/-! ### The blocks, entry by entry -/

/-- Entry `(p, k)` of the activations' block at point `t`. -/
theorem xblk_apply (c : Dev nD) (t : Fin cfg0.N) (p k : Fin 1024) :
    xblk m c t (ix2 p k) = ent (X m c) (t.val / 16 * 1024 + p.val) (t.val % 4 * 1024 + k.val) := by
  have hN := t_lt t
  have hp := p.isLt
  have hk := k.isLt
  rw [Cert.Lora.ent_of_lt (X m c) (by omega) (by omega)]
  unfold xblk iblk
  rw [View.read_apply]
  show V m c main_v0 _ = V m c main_v0 _
  congr 1
  funext a
  apply Fin.ext
  match a with
  | ⟨0, _⟩ => show win0_0.index t 0 * 1024 + 1 * p.val = t.val / 16 * 1024 + p.val; rw [(idx_x t).1]; omega
  | ⟨1, _⟩ => show win0_0.index t 1 * 1024 + 1 * k.val = t.val % 4 * 1024 + k.val; rw [(idx_x t).2]; omega

/-- Entry `(q, k)` of the weights' block at point `t`. -/
theorem wblk_apply (c : Dev nD) (t : Fin cfg0.N) (q k : Fin 1024) :
    wblk m c t (ix2 q k) = ent (Wm m c) (t.val / 4 % 4 * 1024 + q.val) (t.val % 4 * 1024 + k.val) := by
  have hN := t_lt t
  have hq := q.isLt
  have hk := k.isLt
  rw [Cert.Lora.ent_of_lt (Wm m c) (by omega) (by omega)]
  unfold wblk iblk
  rw [View.read_apply]
  show V m c main_arg1 _ = V m c main_arg1 _
  congr 1
  funext a
  apply Fin.ext
  match a with
  | ⟨0, _⟩ => show win0_1.index t 0 * 1024 + 1 * q.val = t.val / 4 % 4 * 1024 + q.val; rw [(idx_w t).1]; omega
  | ⟨1, _⟩ => show win0_1.index t 1 * 1024 + 1 * k.val = t.val % 4 * 1024 + k.val; rw [(idx_w t).2]; omega

/-- Entry `(q, k)` of the first factor's block at point `t`. -/
theorem ablk_apply (c : Dev nD) (t : Fin cfg0.N) (q : Fin 16) (k : Fin 1024) :
    ablk m c t (ix2 q k) = ent (Am m c) q.val (t.val % 4 * 1024 + k.val) := by
  have hN := t_lt t
  have hq := q.isLt
  have hk := k.isLt
  rw [Cert.Lora.ent_of_lt (Am m c) (by omega) (by omega)]
  unfold ablk iblk
  rw [View.read_apply]
  show V m c main_arg2 _ = V m c main_arg2 _
  congr 1
  funext a
  apply Fin.ext
  match a with
  | ⟨0, _⟩ => show win0_2.index t 0 * 16 + 1 * q.val = q.val; rw [(idx_a t).1]; omega
  | ⟨1, _⟩ => show win0_2.index t 1 * 1024 + 1 * k.val = t.val % 4 * 1024 + k.val; rw [(idx_a t).2]; omega

/-- Entry `(q, r)` of the second factor's block at point `t`. -/
theorem bblk_apply (c : Dev nD) (t : Fin cfg0.N) (q : Fin 1024) (r : Fin 16) :
    bblk m c t (ix2 q r) = ent (Bm m c) (t.val / 4 % 4 * 1024 + q.val) r.val := by
  have hN := t_lt t
  have hq := q.isLt
  have hr := r.isLt
  rw [Cert.Lora.ent_of_lt (Bm m c) (by omega) (by omega)]
  unfold bblk iblk
  rw [View.read_apply]
  show V m c main_arg3 _ = V m c main_arg3 _
  congr 1
  funext a
  apply Fin.ext
  match a with
  | ⟨0, _⟩ => show win0_3.index t 0 * 1024 + 1 * q.val = t.val / 4 % 4 * 1024 + q.val; rw [(idx_b t).1]; omega
  | ⟨1, _⟩ => show win0_3.index t 1 * 16 + 1 * r.val = r.val; rw [(idx_b t).2]; omega

end Cert.KernelIdeal.Blocks

end
-- ==== Proof.Invariant.lean ====
import proofs.«102840_j21388937134483_1_alg».proof.Proof.KernelPieces
import proofs.«102840_j21388937134483_1_alg».proof.Proof.PayloadAt
import proofs.«102840_j21388937134483_1_alg».proof.Proof.BlockReads

/-!
The two accumulators, point by point, and the output tile.

Within one reduction (four consecutive points `t` with the same `t / 4`, reduction coordinate
`k = t % 4` running `0, 1, 2, 3`) the base accumulator after point `t` holds, at `(p, q)`, the
partial sum over the column tiles `0 … k` of the inner product of row `i * 1024 + p` of `X` with
row `j * 1024 + q` of `W`; the low-rank accumulator the same against row `q` of `A`. This is proved
by induction on the point number: the first point of a reduction starts from zero, every later
point adds the next tile to what the point before left (and the point before belongs to the same
reduction, so it has the same `i` and `j`).

At `k = 3` all four tiles are in, so both accumulators hold whole-row inner products, and the
output tile is the layer's output at rows `i * 1024 …`, columns `j * 1024 …`.
-/

set_option maxRecDepth 16384

noncomputable section

namespace Cert.KernelIdeal.Inv

open scoped BigOperators
open Idealize.ShloMosaic Idealize.ShloMosaic.TcCoe Idealize.SL.Sem Idealize.ShloMosaic.ValueIdx
open Cert.KernelIdeal Cert.KernelIdeal.Gen Cert.KernelIdeal.Blocks Cert.KernelIdeal.Pieces Cert.KernelIdeal.PayloadAt
open Cert.Lora (Mat ent tileDot rowDot)

variable (m : (ℓ : Loc nD τ sig) → Buf (Elt Ideal) ℓ)

/-- The base accumulator after point `n`. -/
abbrev baseAcc (c : Dev nD) (n : ℕ) (h : n < cfg0.N) : Vec Ideal S1024x1024 .f32 := (outsAt0 m c n h).2.1
/-- The low-rank accumulator after point `n`. -/
abbrev lowAcc (c : Dev nD) (n : ℕ) (h : n < cfg0.N) : Vec Ideal S1024x16 .f32 := (outsAt0 m c n h).2.2
/-- The output window's buffer after point `n`. -/
abbrev outTile (c : Dev nD) (n : ℕ) (h : n < cfg0.N) : Vec Ideal S1024x1024 .f32 := (outsAt0 m c n h).1

theorem pred_lt (t : Fin cfg0.N) : t.val - 1 < cfg0.N := Nat.lt_of_le_of_lt (Nat.sub_le _ _) t.isLt

/-! ### One point's effect on the buffers, as the body's pure terms -/

/-- The first point of a reduction: both accumulators start from the zero tile. -/
theorem step_first (c : Dev nD) (t : Fin cfg0.N) (h0 : t.val % 4 = 0) :
    baseAcc m c t.val t.isLt = k0_pay4 (xblk m c t) (wblk m c t) (k0_pay1 (F := Ideal))
    ∧ lowAcc m c t.val t.isLt = k0_pay5 (xblk m c t) (ablk m c t) (k0_pay2 (F := Ideal)) := by
  have h1 : ¬t.val % 4 = 3 := by omega
  constructor
  · show (outsAt0 m c t.val t.isLt).2.1 = _
    rw [outsAt0_A m c t h0 h1]; dsimp only
    exact base_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) ((hcond0_0 t).mpr h0) (fun h => h1 ((hcond0_1 t).mp h))
  · show (outsAt0 m c t.val t.isLt).2.2 = _
    rw [outsAt0_A m c t h0 h1]; dsimp only
    exact low_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) ((hcond0_0 t).mpr h0) (fun h => h1 ((hcond0_1 t).mp h))

/-- Every later point of a reduction: both accumulators continue from what the point before left. -/
theorem step_later (c : Dev nD) (t : Fin cfg0.N) (h0 : ¬t.val % 4 = 0) :
    baseAcc m c t.val t.isLt = k0_pay4 (xblk m c t) (wblk m c t) (baseAcc m c (t.val - 1) (pred_lt t))
    ∧ lowAcc m c t.val t.isLt = k0_pay5 (xblk m c t) (ablk m c t) (lowAcc m c (t.val - 1) (pred_lt t)) := by
  by_cases h1 : t.val % 4 = 3
  · constructor
    · show (outsAt0 m c t.val t.isLt).2.1 = _
      rw [outsAt0_C m c t h0 h1]; dsimp only
      exact base_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (pred_lt t)).2.1 (outsAt0 m c (t.val - 1) (pred_lt t)).2.2 (fun h => h0 ((hcond0_0 t).mp h)) ((hcond0_1 t).mpr h1)
    · show (outsAt0 m c t.val t.isLt).2.2 = _
      rw [outsAt0_C m c t h0 h1]; dsimp only
      exact low_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (pred_lt t)).2.1 (outsAt0 m c (t.val - 1) (pred_lt t)).2.2 (fun h => h0 ((hcond0_0 t).mp h)) ((hcond0_1 t).mpr h1)
  · constructor
    · show (outsAt0 m c t.val t.isLt).2.1 = _
      rw [outsAt0_B m c t h0 h1]; dsimp only
      exact base_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (pred_lt t)).2.1 (outsAt0 m c (t.val - 1) (pred_lt t)).2.2 (fun h => h0 ((hcond0_0 t).mp h)) (fun h => h1 ((hcond0_1 t).mp h))
    · show (outsAt0 m c t.val t.isLt).2.2 = _
      rw [outsAt0_B m c t h0 h1]; dsimp only
      exact low_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (pred_lt t)).2.1 (outsAt0 m c (t.val - 1) (pred_lt t)).2.2 (fun h => h0 ((hcond0_0 t).mp h)) (fun h => h1 ((hcond0_1 t).mp h))

/-- The last point of a reduction also writes the output tile, from the accumulators as this point leaves them. -/
theorem step_out (c : Dev nD) (t : Fin cfg0.N) (h1 : t.val % 4 = 3) :
    outTile m c t.val t.isLt = k0_pay6 (bblk m c t) (lowAcc m c t.val t.isLt) (baseAcc m c t.val t.isLt) := by
  have h0 : ¬t.val % 4 = 0 := by omega
  rw [(step_later m c t h0).1, (step_later m c t h0).2]
  show (outsAt0 m c t.val t.isLt).1 = _
  rw [outsAt0_C m c t h0 h1]; dsimp only
  exact out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (pred_lt t)).2.1 (outsAt0 m c (t.val - 1) (pred_lt t)).2.2 (fun h => h0 ((hcond0_0 t).mp h)) ((hcond0_1 t).mpr h1)

/-! ### The accumulators as partial sums over the column tiles -/

/-- Row `p` of the base accumulator after point `n`: the tiles `0 … n % 4` of the inner products with the rows of `W`. -/
abbrev BaseOk (c : Dev nD) (n : ℕ) (h : n < cfg0.N) (p : Fin 1024) : Prop :=
  ∀ q : Fin 1024, baseAcc m c n h (ix2 p q)
    = ∑ kt ∈ Finset.range (n % 4 + 1), tileDot 1024 (X m c) (Wm m c) (n / 16 * 1024 + p.val) (n / 4 % 4 * 1024 + q.val) kt

/-- Row `p` of the low-rank accumulator after point `n`: the same against the 16 rows of `A`. -/
abbrev LowOk (c : Dev nD) (n : ℕ) (h : n < cfg0.N) (p : Fin 1024) : Prop :=
  ∀ q : Fin 16, lowAcc m c n h (ix2 p q)
    = ∑ kt ∈ Finset.range (n % 4 + 1), tileDot 1024 (X m c) (Am m c) (n / 16 * 1024 + p.val) q.val kt

/-- The product of this point's blocks of `X` and `W` at `(p, q)` is column tile `t % 4` of a row inner product. -/
theorem tile_xw (c : Dev nD) (t : Fin cfg0.N) (p q : Fin 1024) :
    ∑ k : Fin 1024, xblk m c t (ix2 p k) * wblk m c t (ix2 q k)
      = tileDot 1024 (X m c) (Wm m c) (t.val / 16 * 1024 + p.val) (t.val / 4 % 4 * 1024 + q.val) (t.val % 4) := by
  unfold tileDot
  exact Finset.sum_congr rfl fun k _ => by rw [xblk_apply, wblk_apply]

/-- The same for the blocks of `X` and `A`. -/
theorem tile_xa (c : Dev nD) (t : Fin cfg0.N) (p : Fin 1024) (q : Fin 16) :
    ∑ k : Fin 1024, xblk m c t (ix2 p k) * ablk m c t (ix2 q k)
      = tileDot 1024 (X m c) (Am m c) (t.val / 16 * 1024 + p.val) q.val (t.val % 4) := by
  unfold tileDot
  exact Finset.sum_congr rfl fun k _ => by rw [xblk_apply, ablk_apply]

theorem base_first (c : Dev nD) (t : Fin cfg0.N) (h0 : t.val % 4 = 0) (p : Fin 1024) : BaseOk m c t.val t.isLt p := by
  intro q
  rw [(step_first m c t h0).1, pay4_apply, pay1_apply, zero_add, tile_xw, h0]
  exact (Cert.Lora.partial_one 1024 _ _ _ _).symm

theorem low_first (c : Dev nD) (t : Fin cfg0.N) (h0 : t.val % 4 = 0) (p : Fin 1024) : LowOk m c t.val t.isLt p := by
  intro q
  rw [(step_first m c t h0).2, pay5_apply, pay2_apply, zero_add, tile_xa, h0]
  exact (Cert.Lora.partial_one 1024 _ _ _ _).symm

theorem base_later (c : Dev nD) (t : Fin cfg0.N) (h0 : ¬t.val % 4 = 0) (p : Fin 1024)
    (ih : BaseOk m c (t.val - 1) (pred_lt t) p) : BaseOk m c t.val t.isLt p := by
  intro q
  have hN := t_lt t
  have e1 : (t.val - 1) / 16 = t.val / 16 := by omega
  have e2 : (t.val - 1) / 4 % 4 = t.val / 4 % 4 := by omega
  have e3 : t.val % 4 = (t.val - 1) % 4 + 1 := by omega
  rw [(step_later m c t h0).1, pay4_apply, ih q, tile_xw, e1, e2, e3]
  exact (Cert.Lora.partial_succ 1024 _ _ _ _ _).symm

theorem low_later (c : Dev nD) (t : Fin cfg0.N) (h0 : ¬t.val % 4 = 0) (p : Fin 1024)
    (ih : LowOk m c (t.val - 1) (pred_lt t) p) : LowOk m c t.val t.isLt p := by
  intro q
  have hN := t_lt t
  have e1 : (t.val - 1) / 16 = t.val / 16 := by omega
  have e3 : t.val % 4 = (t.val - 1) % 4 + 1 := by omega
  rw [(step_later m c t h0).2, pay5_apply, ih q, tile_xa, e1, e3]
  exact (Cert.Lora.partial_succ 1024 _ _ _ _ _).symm

/-- Both accumulators hold their partial sums after every point. -/
theorem acc_inv (c : Dev nD) (n : ℕ) : ∀ (h : n < cfg0.N) (p : Fin 1024), BaseOk m c n h p ∧ LowOk m c n h p := by
  induction n with
  | zero => intro h p; exact ⟨base_first m c ⟨0, h⟩ rfl p, low_first m c ⟨0, h⟩ rfl p⟩
  | succ n ih =>
    intro h p
    by_cases h0 : (n + 1) % 4 = 0
    · exact ⟨base_first m c ⟨n + 1, h⟩ h0 p, low_first m c ⟨n + 1, h⟩ h0 p⟩
    · obtain ⟨ib, il⟩ := ih (Nat.lt_of_succ_lt h) p
      exact ⟨base_later m c ⟨n + 1, h⟩ h0 p ib, low_later m c ⟨n + 1, h⟩ h0 p il⟩

/-! ### The output tile -/

/-- At the last point of a reduction the output tile holds the layer's output at rows `i * 1024 + p`,
    columns `j * 1024 + q`: the four tiles make each accumulator a whole-row inner product. -/
theorem out_tile (c : Dev nD) (t : Fin cfg0.N) (h1 : t.val % 4 = 3) (p q : Fin 1024) :
    outTile m c t.val t.isLt (ix2 p q)
      = Cert.Lora.out (X m c) (Wm m c) (Am m c) (Bm m c) (t.val / 16 * 1024 + p.val) (t.val / 4 % 4 * 1024 + q.val) := by
  obtain ⟨hb, hl⟩ := acc_inv m c t.val t.isLt p
  have eb : baseAcc m c t.val t.isLt (ix2 p q)
      = rowDot (X m c) (Wm m c) (t.val / 16 * 1024 + p.val) (t.val / 4 % 4 * 1024 + q.val) := by
    rw [hb q, h1]; exact Cert.Lora.sum_tileDot 4 1024 (by norm_num) _ _ _ _
  have el : ∀ k : Fin 16, lowAcc m c t.val t.isLt (ix2 p k) = rowDot (X m c) (Am m c) (t.val / 16 * 1024 + p.val) k.val := fun k => by
    rw [hl k, h1]; exact Cert.Lora.sum_tileDot 4 1024 (by norm_num) _ _ _ _
  rw [step_out m c t h1, pay6_apply, eb]
  unfold Cert.Lora.out Cert.Lora.two
  simp only [el, bblk_apply]

/-- The same for the whole tile, over the tile's own index type. -/
theorem out_tile_fun (c : Dev nD) (t : Fin cfg0.N) (h1 : t.val % 4 = 3) :
    outTile m c t.val t.isLt = fun y : S1024x1024.Idx =>
      Cert.Lora.out (X m c) (Wm m c) (Am m c) (Bm m c) (t.val / 16 * 1024 + (y 0).val) (t.val / 4 % 4 * 1024 + (y 1).val) := by
  funext y
  obtain ⟨p, q, rfl⟩ : ∃ (p q : Fin 1024), y = ix2 p q := ⟨y 0, y 1, eq_ix2 y⟩
  exact out_tile m c t h1 p q

end Cert.KernelIdeal.Inv

end
-- ==== Proof.Final.lean ====
import proofs.«102840_j21388937134483_1_alg».proof.Proof.Invariant
import Idealize.ShloMosaic.Lib.Pipeline.Value
import Idealize.ShloMosaic.Lib.StableHlo.Run
import Idealize.ShloMosaic.Lib.Tactic

/-!
From the output tiles to the program's result.

The 32 last points of the reductions (point numbers `t` with `t % 4 = 3`) each write back one
1024 × 1024 tile, tile `(t / 16, (t / 4) % 4)` of the 8192 × 4096 result; those tiles are all 8 × 4
of them, so the result array ends holding the layer's output everywhere. Before the region the
program flattens the stack of token sequences `x` (4 × 2048 × 4096) to the matrix `X`
(row `b * 2048 + s`), and after it unflattens the result the same way; so the program's result at
`(b, s, o)` is the layer's output at row `b * 2048 + s`, which is the layer's output on the stack.
-/

set_option maxRecDepth 16384

noncomputable section

namespace Cert.KernelIdeal.Result

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Inv

variable (m : (ℓ : Loc nD τ sig) → Buf (Elt Ideal) ℓ) (ρ : Dev nD → PrngReg)

/-- The whole result matrix: the layer's output at every token row and output feature. -/
abbrev G (c : Dev nD) : Buf (Elt Ideal) ((c : Thread nD τ).loc main_v1) :=
  fun i : S8192x4096.Idx => Cert.Lora.out (X m c) (Wm m c) (Am m c) (Bm m c) (i 0).val (i 1).val

/-- What a last point of a reduction writes back is its tile of the result matrix. -/
theorem flushed_eq (c : Dev nD) (t : Fin cfg0.N) (hf : (cfg0.win 4).flush t = true) :
    (dats m 0 c).flushed 4 t = ((cfg0.win 4).blk t).view.read (Elt Ideal) (G m c) := by
  have h1 : t.val % 4 = 3 := (flush0_4 t).mp hf
  show (cfg0.win 4).cut (grid0.coords t) ((dats m 0 c).after 4 t) = _
  rw [after0_4]
  show (cfg0.win 4).cut (grid0.coords t) (outTile m c t.val t.isLt) = _
  rw [out_tile_fun m c t h1]
  funext j
  show Cert.Lora.out (X m c) (Wm m c) (Am m c) (Bm m c) (t.val / 16 * 1024 + (j 0).val) (t.val / 4 % 4 * 1024 + (j 1).val)
    = Cert.Lora.out (X m c) (Wm m c) (Am m c) (Bm m c) ((((cfg0.win 4).blk t).view.emb j) 0).val ((((cfg0.win 4).blk t).view.emb j) 1).val
  have r0 : ((((cfg0.win 4).blk t).view.emb j) 0).val = t.val / 16 * 1024 + (j 0).val := by
    show win0_4.index t (0 : Fin 2) * 1024 + 1 * (j 0).val = _
    rw [(idx_o t).1]; omega
  have r1 : ((((cfg0.win 4).blk t).view.emb j) 1).val = t.val / 4 % 4 * 1024 + (j 1).val := by
    show win0_4.index t (1 : Fin 2) * 1024 + 1 * (j 1).val = _
    rw [(idx_o t).2]; omega
  rw [r0, r1]

/-- An entry of the result matrix is in point `t`'s tile iff each coordinate is in the tile's range. -/
theorem mem_blk (t : Fin cfg0.N) (i : S8192x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v1).slice (win0_4.rect t)).set ↔ _
  rw [View.set_slice_whole, Rect.mem_set_unit]
  exact Iff.rfl

/-- Every entry of the result matrix is in the tile some last point writes back: the point with
    `i = row / 1024`, `j = column / 1024`, `k = 3`. -/
theorem cover (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  have hlt : (i 0).val / 1024 * 16 + (i 1).val / 1024 * 4 + 3 < 128 := by omega
  refine ⟨⟨(i 0).val / 1024 * 16 + (i 1).val / 1024 * 4 + 3, lt_of_lt_of_eq hlt N_0.symm⟩, (flush0_4 _).mpr (by show ((i 0).val / 1024 * 16 + (i 1).val / 1024 * 4 + 3) % 4 = 3; omega), ?_⟩
  rw [mem_blk]
  intro a
  match a with
  | ⟨0, _⟩ =>
    show win0_4.index _ (0 : Fin 2) * 1024 ≤ (i 0).val ∧ (i 0).val < win0_4.index _ (0 : Fin 2) * 1024 + 1024
    rw [(idx_o _).1]
    show ((i 0).val / 1024 * 16 + (i 1).val / 1024 * 4 + 3) / 16 * 1024 ≤ (i 0).val ∧ (i 0).val < ((i 0).val / 1024 * 16 + (i 1).val / 1024 * 4 + 3) / 16 * 1024 + 1024
    omega
  | ⟨1, _⟩ =>
    show win0_4.index _ (1 : Fin 2) * 1024 ≤ (i 1).val ∧ (i 1).val < win0_4.index _ (1 : Fin 2) * 1024 + 1024
    rw [(idx_o _).2]
    show ((i 0).val / 1024 * 16 + (i 1).val / 1024 * 4 + 3) / 4 % 4 * 1024 ≤ (i 1).val ∧ (i 1).val < ((i 0).val / 1024 * 16 + (i 1).val / 1024 * 4 + 3) / 4 % 4 * 1024 + 1024
    omega

/-- So the result array ends holding the result matrix. -/
theorem final (c : Dev nD) : (dats m 0 c).arrAt 4 cfg0.N = G m c :=
  (dats m 0 c).arrAt_eq_of_cover 4 (G m c) (flushed_eq m c) cover

/-! ### The two host reshapes around the region -/

/-- The matrix the region finds is the stack of token sequences, flattened by the program's first operation. -/
theorem X_eq (c : Dev nD) :
    X m c = shapeCast S8192x4096 (m ((c : Thread nD τ).loc main_arg0)) Facts₀.shapeCasts_S4x2048x4096_S8192x4096 := by
  show StableHlo.after hostOps0 (fun b => m (c, b)) (Proc.devRef .tc main_v0) = _
  after_results
  rfl

/-- Row `b * 2048 + s` of that matrix is token `(b, s)` of the stack: flattening keeps the row-major position. -/
theorem X_row (c : Dev nD) (b : Fin 4) (s : Fin 2048) (k : Fin 4096) :
    Cert.Lora.ent (X m c) (b.val * 2048 + s.val) k.val = m ((c : Thread nD τ).loc main_arg0) (ix3 b s k) := by
  have hb := b.isLt
  have hs := s.isLt
  rw [Cert.Lora.ent_of_lt (X m c) (show b.val * 2048 + s.val < 8192 by omega) k.isLt, X_eq]
  exact shapeCast_apply _ _ _ (ix3 b s k) (by
    rw [Shape.rowMajor_val_three, Shape.rowMajor_val_two]
    rfl)

/-- Unflattening a matrix with 8192 rows reads, at `(b, s, o)`, row `b * 2048 + s`. -/
theorem unflatten_apply (g : S8192x4096.Idx → EReal) (b : Fin 4) (s : Fin 2048) (o : Fin 4096) (hlt : b.val * 2048 + s.val < 8192) :
    shapeCast S4x2048x4096 g Facts₀.shapeCasts_S8192x4096_S4x2048x4096 (ix3 b s o) = g (ix2 ⟨b.val * 2048 + s.val, hlt⟩ o) :=
  shapeCast_apply g _ (ix3 b s o) (ix2 ⟨b.val * 2048 + s.val, hlt⟩ o) (by
    rw [Shape.rowMajor_val_two, Shape.rowMajor_val_three]
    rfl)

/-- After the region the program's last operation unflattens the result matrix. -/
theorem tail_eq (c : Dev nD) :
    Pipeline.afterTail₀ cfgs (dats m) 0 (V0 m) [hostOps1] c main_v2
      = shapeCast S4x2048x4096 (G m c) Facts₀.shapeCasts_S8192x4096_S4x2048x4096 := by
  unfold Pipeline.afterTail₀
  show StableHlo.after hostOps1 _ (Proc.devRef .tc main_v2) = _
  after_results
  have e := (Pipeline.withArrays_arr spec0 launch0.win.arr_inj c (V0 m c) (fun w => (dats m 0 c).arrAt w cfg0.N) 4).trans (final m c)
  funext i
  show shapeCast S4x2048x4096 (Pipeline.withArrays spec0 c (V0 m c) (fun w => (dats m 0 c).arrAt w cfg0.N) (Proc.devRef .tc main_v1))
    Facts₀.shapeCasts_S8192x4096_S4x2048x4096 i = _
  rw [e]

/-- The weights and the two factors reach the region as launched. -/
theorem Wm_eq (c : Dev nD) : Wm m c = m ((c : Thread nD τ).loc main_arg1) := V_main_arg1 m c
theorem Am_eq (c : Dev nD) : Am m c = m ((c : Thread nD τ).loc main_arg2) := V_main_arg2 m c
theorem Bm_eq (c : Dev nD) : Bm m c = m ((c : Thread nD τ).loc main_arg3) := V_main_arg3 m c

/-- The unflattened result matrix is the layer's output on the stack of token sequences. -/
theorem result_eq (c : Dev nD) :
    shapeCast S4x2048x4096 (G m c) Facts₀.shapeCasts_S8192x4096_S4x2048x4096
      = Cert.Lora.outBatch (m ((c : Thread nD τ).loc main_arg0)) (m ((c : Thread nD τ).loc main_arg1))
          (m ((c : Thread nD τ).loc main_arg2)) (m ((c : Thread nD τ).loc main_arg3)) := by
  funext i
  obtain ⟨b, s, o, rfl⟩ : ∃ (b : Fin 4) (s : Fin 2048) (o : Fin 4096), i = ix3 b s o := ⟨i 0, i 1, i 2, eq_ix3 i⟩
  have hb := b.isLt
  have hs := s.isLt
  rw [unflatten_apply (G m c) b s o (by omega)]
  show Cert.Lora.out (X m c) (Wm m c) (Am m c) (Bm m c) (b.val * 2048 + s.val) o.val = _
  rw [Wm_eq, Am_eq, Bm_eq]
  exact Cert.Lora.out_eq_outBatch (N := 4) (S := 2048) (m ((c : Thread nD τ).loc main_arg0)) (X m c) _ _ _ (X_row m c) b s o

/-! ### The run, read -/

/-- Every weakly fair execution of the program terminates with the result at the layer's output on the stack and the
    four arguments unchanged. -/
theorem run : θ_run defs (onTc (τ := τ) (main (F := Ideal))) ⟨m, fun _ => 0, ρ⟩ fun r => ∀ c : Dev nD,
      r.2.mem ((c.tc : Thread nD τ).loc main_v2)
        = Cert.Lora.outBatch (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

/-- info: 'Cert.KernelIdeal.Result.run' depends on axioms: [propext, Classical.choice, Quot.sound] -/
#guard_msgs in #print axioms run

end Cert.KernelIdeal.Result

end
-- ==== Proof.lean ====
/- A low-rank-adapted linear layer, tiled and fused, against its plain definition.

   The layer maps a stack of token sequences `x` (4 × 2048 × 4096) to
   `x · Wᵀ + ((x · Aᵀ) · Bᵀ) · 2`, where `W` is 4096 × 4096, the low-rank factors `A` and `B` are 16 × 4096 and
   4096 × 16, and `2 = alpha / rank`.

   The reference computes it as three whole contractions, a product with the scalar and a sum. The kernel flattens
   the stack to 8192 token rows and walks an 8 × 4 × 4 grid of 1024-wide tiles: for each output tile it runs over
   the four column tiles of the input axis, accumulating `x · Wᵀ` into one scratch tile and `x · Aᵀ` into another
   (both zeroed at the first column tile), and at the last column tile contracts the low-rank accumulator with the
   block of `B`, scales by `2`, adds the base accumulator and writes the output tile; the result is unflattened.

   Over the extended reals the two agree entry by entry: a change of float format is the identity, a product into a
   zero accumulator is the plain sum of products, and a row inner product over 4096 columns is the sum of its four
   1024-column tile inner products, by associativity and commutativity of addition alone (no entry needs to be
   finite). The scalar `2` is the same single-precision word on both sides and is multiplied and added in the same
   order, so it is never evaluated.

   Spec.lean states the layer and proves the tile law; RefValue.lean reads the reference as the layer on the stack;
   KernelPieces.lean, PayloadAt.lean and BlockReads.lean read one grid point (what the body leaves, its terms at an
   entry, which entries of the arrays it sees); Invariant.lean carries the two accumulators across a reduction by
   induction on the point; Final.lean assembles the output tiles into the result and passes the two reshapes. -/
import proofs.«102840_j21388937134483_1_alg».proof.Defs
import proofs.«102840_j21388937134483_1_alg».proof.Proof.Gen.Kernel
import proofs.«102840_j21388937134483_1_alg».proof.Proof.Gen.Kernel.Skeleton
import proofs.«102840_j21388937134483_1_alg».proof.Proof.Gen.Kernel.Launch
import proofs.«102840_j21388937134483_1_alg».proof.Proof.Gen.Kernel.Points
import proofs.«102840_j21388937134483_1_alg».proof.Proof.Gen.Kernel.Frame
import proofs.«102840_j21388937134483_1_alg».proof.Proof.Gen.KernelIdeal
import proofs.«102840_j21388937134483_1_alg».proof.Proof.Gen.KernelIdeal.Skeleton
import proofs.«102840_j21388937134483_1_alg».proof.Proof.Gen.KernelIdeal.Launch
import proofs.«102840_j21388937134483_1_alg».proof.Proof.Gen.KernelIdeal.Points
import proofs.«102840_j21388937134483_1_alg».proof.Proof.Gen.KernelIdeal.Frame
import proofs.«102840_j21388937134483_1_alg».proof.Proof.Gen.ReferenceIdeal
import proofs.«102840_j21388937134483_1_alg».proof.Proof.Gen.Pre_finite_inputs
import proofs.«102840_j21388937134483_1_alg».proof.Proof.Gen.ReferenceIdeal.Run
import proofs.«102840_j21388937134483_1_alg».proof.Proof.Gen.ReferenceIdeal.Read
import proofs.«102840_j21388937134483_1_alg».proof.Proof.RefValue
import proofs.«102840_j21388937134483_1_alg».proof.Proof.Final
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer's output on the stack of their (agreeing) arguments. -/
theorem algebraic : Cert.algebraic_KernelIdeal_ReferenceIdeal := by
  intro m ρ m' ρ' _ hagree
  refine ⟨fun c => Cert.Lora.outBatch (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
